-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S100000x31 : Shape := ⟨2, ![100000, 31]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S100000 32) (main_arg2 : IVec S100000x31 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S100000 : Shape := ⟨1, ![100000]⟩
abbrev S100000x31 : Shape := ⟨2, ![100000, 31]⟩
abbrev S_ : Shape := ⟨0, ![]⟩
abbrev S100000x31x1 : Shape := ⟨3, ![100000, 31, 1]⟩
abbrev S100000x31x64 : Shape := ⟨3, ![100000, 31, 64]⟩
abbrev S100000x1x64 : Shape := ⟨3, ![100000, 1, 64]⟩
abbrev S100000x1 : Shape := ⟨2, ![100000, 1]⟩
abbrev S100000x2 : Shape := ⟨2, ![100000, 2]⟩
abbrev S2000x31 : Shape := ⟨2, ![2000, 31]⟩
abbrev S2000x2 : Shape := ⟨2, ![2000, 2]⟩
abbrev S2000 : Shape := ⟨1, ![2000]⟩
abbrev S2000x1 : Shape := ⟨2, ![2000, 1]⟩

abbrev nBuf : Space → Nat
  | .hbm => 45
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S100000x31, .i32⟩
  | .hbm, ⟨3, _⟩ => ⟨S_, .i32⟩
  | .hbm, ⟨4, _⟩ => ⟨S100000x31, .i32⟩
  | .hbm, ⟨5, _⟩ => ⟨S100000x31, .i1⟩
  | .hbm, ⟨6, _⟩ => ⟨S_, .i32⟩
  | .hbm, ⟨7, _⟩ => ⟨S100000x31, .i32⟩
  | .hbm, ⟨8, _⟩ => ⟨S100000x31, .i32⟩
  | .hbm, ⟨9, _⟩ => ⟨S100000x31, .i32⟩
  | .hbm, ⟨10, _⟩ => ⟨S100000x31x1, .i32⟩
  | .hbm, ⟨11, _⟩ => ⟨S100000x31x64, .f32⟩
  | .hbm, ⟨12, _⟩ => ⟨S100000x1x64, .f32⟩
  | .hbm, ⟨13, _⟩ => ⟨S100000x31x64, .f32⟩
  | .hbm, ⟨14, _⟩ => ⟨S100000x31x64, .f32⟩
  | .hbm, ⟨15, _⟩ => ⟨S100000x31x64, .f32⟩
  | .hbm, ⟨16, _⟩ => ⟨S_, .f32⟩
  | .hbm, ⟨17, _⟩ => ⟨S100000x31, .f32⟩
  | .hbm, ⟨18, _⟩ => ⟨S_, .i32⟩
  | .hbm, ⟨19, _⟩ => ⟨S100000x31, .i32⟩
  | .hbm, ⟨20, _⟩ => ⟨S100000x31, .i1⟩
  | .hbm, ⟨21, _⟩ => ⟨S_, .i32⟩
  | .hbm, ⟨22, _⟩ => ⟨S100000x31, .i32⟩
  | .hbm, ⟨23, _⟩ => ⟨S100000x31, .i32⟩
  | .hbm, ⟨24, _⟩ => ⟨S100000x31, .i32⟩
  | .hbm, ⟨25, _⟩ => ⟨S100000x31x1, .i32⟩
  | .hbm, ⟨26, _⟩ => ⟨S100000x31, .i32⟩
  | .hbm, ⟨27, _⟩ => ⟨S100000x1, .i32⟩
  | .hbm, ⟨28, _⟩ => ⟨S100000x31, .i32⟩
  | .hbm, ⟨29, _⟩ => ⟨S100000x31, .i1⟩
  | .hbm, ⟨30, _⟩ => ⟨S100000x31, .f32⟩
  | .hbm, ⟨31, _⟩ => ⟨S100000x2, .f32⟩
  | .hbm, ⟨32, _⟩ => ⟨S100000x1, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000x1, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S2000x31, .f32⟩
  | .local _ .vmem, ⟨1, _⟩ => ⟨S2000x31, .f32⟩
  | .local _ .vmem, ⟨2, _⟩ => ⟨S2000x31, .f32⟩
  | .local _ .vmem, ⟨3, _⟩ => ⟨S2000x31, .f32⟩
  | .local _ .vmem, ⟨4, _⟩ => ⟨S2000x2, .f32⟩
  | .local _ .vmem, ⟨5, _⟩ => ⟨S2000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S100000x31 : S_.BroadcastsInDim S100000x31 (![] : Fin 0 → Fin S100000x31.rank)
  bcast_S100000x31_S100000x31x1_0_1 : S100000x31.BroadcastsInDim S100000x31x1 (![0, 1] : Fin 2 → Fin S100000x31x1.rank)
  bcast_S100000x64_S100000x1x64_0_2 : S100000x64.BroadcastsInDim S100000x1x64 (![0, 2] : Fin 2 → Fin S100000x1x64.rank)
  bcast_S100000x1x64_S100000x31x64_0_1_2 : S100000x1x64.BroadcastsInDim S100000x31x64 (![0, 1, 2] : Fin 3 → Fin S100000x31x64.rank)
  reducesTo_S100000x31x64_S100000x31_d2 : S100000x31x64.ReducesTo [2] S100000x31
  h_S_ : 0 < S_.numel
  bcast_S100000_S100000x1_0 : S100000.BroadcastsInDim S100000x1 (![0] : Fin 1 → Fin S100000x1.rank)
  bcast_S100000x1_S100000x31_0_1 : S100000x1.BroadcastsInDim S100000x31 (![0, 1] : Fin 2 → Fin S100000x31.rank)
  inb_S2000x31_S2000x31_0_0 : ∀ a, (![0, 0] : Fin 2 → Nat) a + S2000x31.size a ≤ S2000x31.size a
  h_S2000x31 : 0 < S2000x31.numel
  shapeCasts_S2000x31_S2000x31 : S2000x31.ShapeCasts S2000x31
  reduces_S2000x31_S2000 : S2000x31.Reduces [1] S2000
  shapeCasts_S2000_S2000x1 : S2000.ShapeCasts S2000x1
  broadcasts_S2000x1_S2000x31 : S2000x1.Broadcasts S2000x31
  natLt_1_32 : 1 < 32
  concatenates_S2000x1_S2000x1_S2000x2_d1 : Shape.Concatenates [S2000x1, S2000x1] S2000x2 1
  inb_S2000x2_S2000x2_0_0 : ∀ a, (![0, 0] : Fin 2 → Nat) a + S2000x2.size a ≤ S2000x2.size a
  h_S2000x2 : 0 < S2000x2.numel
  slices_S100000x2_S100000x1_0_0 : S100000x2.Slices ![0, 0] S100000x1
  shapeCasts_S100000x1_S100000 : S100000x1.ShapeCasts S100000
  reducesTo_S100000_S_d0 : S100000.ReducesTo [0] S_
  slices_S100000x2_S100000x1_0_1 : S100000x2.Slices ![0, 1] S100000x1
  gather_S100000x64_S100000x31x1_S100000x31x64_2_0_n_n_0_2_164_wf : GatherDims.WF S100000x64 S100000x31x1 S100000x31x64 [2] [0] [] [0] [] 2 ![1, 64]
  gather_S100000_S100000x31x1_S100000x31_n_0_n_n_0_2_1_wf : GatherDims.WF S100000 S100000x31x1 S100000x31 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x31.size a ≤ S100000x31.size a
  hwx0_0 : ∀ i : grid0.Coords, EltTy.bits .f32 = 32 ∨ (Rect.block (s := S100000x31) S2000x31.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x31.size a ≤ S100000x31.size a
  hwx0_1 : ∀ i : grid0.Coords, EltTy.bits .f32 = 32 ∨ (Rect.block (s := S100000x31) S2000x31.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S100000x2.size a
  hwx0_2 : ∀ i : grid0.Coords, EltTy.bits .f32 = 32 ∨ (Rect.block (s := S100000x2) S2000x2.size (cc0_transform_2 i) (hinb0_2 i)).WholeWords (EltTy.packing .f32)

variable [Facts₀]

def gather_S100000x64_S100000x31x1_S100000x31x64_2_0_n_n_0_2_164 : GatherDims S100000x64 S100000x31x1 S100000x31x64 where
  offsetDims := [2]
  collapsedSliceDims := [0]
  operandBatchingDims := []
  startIndicesBatchingDims := []
  startIndexMap := [0]
  indexVectorDim := 2
  sliceSizes := ![1, 64]
  wf := gather_S100000x64_S100000x31x1_S100000x31x64_2_0_n_n_0_2_164_wf
def gather_S100000_S100000x31x1_S100000x31_n_0_n_n_0_2_1 : GatherDims S100000 S100000x31x1 S100000x31 where
  offsetDims := []
  collapsedSliceDims := [0]
  operandBatchingDims := []
  startIndicesBatchingDims := []
  startIndexMap := [0]
  indexVectorDim := 2
  sliceSizes := ![1]
  wf := gather_S100000_S100000x31x1_S100000x31_n_0_n_n_0_2_1_wf

abbrev win0_0 : Pipeline.Window sig grid0 :=
  Pipeline.Window.ofSpec (Memref.whole main_v11) S2000x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x31.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000 : Shape := ⟨1, ![100000]⟩
abbrev S100000x31 : Shape := ⟨2, ![100000, 31]⟩
abbrev S_ : Shape := ⟨0, ![]⟩
abbrev S100000x31x1 : Shape := ⟨3, ![100000, 31, 1]⟩
abbrev S100000x1 : Shape := ⟨2, ![100000, 1]⟩
abbrev S100000x31x64 : Shape := ⟨3, ![100000, 31, 64]⟩
abbrev S100000x1x64 : Shape := ⟨3, ![100000, 1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S100000x31, .i32⟩
  | .hbm, ⟨3, _⟩ => ⟨S_, .i32⟩
  | .hbm, ⟨4, _⟩ => ⟨S100000x31, .i32⟩
  | .hbm, ⟨5, _⟩ => ⟨S100000x31, .i1⟩
  | .hbm, ⟨6, _⟩ => ⟨S_, .i32⟩
  | .hbm, ⟨7, _⟩ => ⟨S100000x31, .i32⟩
  | .hbm, ⟨8, _⟩ => ⟨S100000x31, .i32⟩
  | .hbm, ⟨9, _⟩ => ⟨S100000x31, .i32⟩
  | .hbm, ⟨10, _⟩ => ⟨S100000x31x1, .i32⟩
  | .hbm, ⟨11, _⟩ => ⟨S100000x31, .i32⟩
  | .hbm, ⟨12, _⟩ => ⟨S100000x1, .i32⟩
  | .hbm, ⟨13, _⟩ => ⟨S100000x31, .i32⟩
  | .hbm, ⟨14, _⟩ => ⟨S100000x31, .i1⟩
  | .hbm, ⟨15, _⟩ => ⟨S100000x31, .i32⟩
  | .hbm, ⟨16, _⟩ => ⟨S_, .i32⟩
  | .hbm, ⟨17, _⟩ => ⟨S100000, .i32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S100000, .i1⟩
  | .hbm, ⟨25, _⟩ => ⟨S_, .i32⟩
  | .hbm, ⟨26, _⟩ => ⟨S100000x31, .i32⟩
  | .hbm, ⟨27, _⟩ => ⟨S100000x31, .i1⟩
  | .hbm, ⟨28, _⟩ => ⟨S_, .i32⟩
  | .hbm, ⟨29, _⟩ => ⟨S100000x31, .i32⟩
  | .hbm, ⟨30, _⟩ => ⟨S100000x31, .i32⟩
  | .hbm, ⟨31, _⟩ => ⟨S100000x31, .i32⟩
  | .hbm, ⟨32, _⟩ => ⟨S100000x31x1, .i32⟩
  | .hbm, ⟨33, _⟩ => ⟨S100000x31x64, .f32⟩
  | .hbm, ⟨34, _⟩ => ⟨S100000x1x64, .f32⟩
  | .hbm, ⟨35, _⟩ => ⟨S100000x31x64, .f32⟩
  | .hbm, ⟨36, _⟩ => ⟨S100000x31x64, .f32⟩
  | .hbm, ⟨37, _⟩ => ⟨S100000x31x64, .f32⟩
  | .hbm, ⟨38, _⟩ => ⟨S_, .f32⟩
  | .hbm, ⟨39, _⟩ => ⟨S100000x31, .f32⟩
  | .hbm, ⟨40, _⟩ => ⟨S100000x31, .f32⟩
  | .hbm, ⟨41, _⟩ => ⟨S_, .f32⟩
  | .hbm, ⟨42, _⟩ => ⟨S100000x31, .f32⟩
  | .hbm, ⟨43, _⟩ => ⟨S100000x31, .f32⟩
  | .hbm, ⟨44, _⟩ => ⟨S100000x31, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S100000x31, .f32⟩
  | .hbm, ⟨49, _⟩ => ⟨S100000x31, .f32⟩
  | .hbm, ⟨50, _⟩ => ⟨S_, .f32⟩
  | .hbm, ⟨51, _⟩ => ⟨S100000x31, .f32⟩
  | .hbm, ⟨52, _⟩ => ⟨S100000x31, .f32⟩
  | .hbm, ⟨53, _⟩ => ⟨S100000x31, .f32⟩
  | .hbm, ⟨54, _⟩ => ⟨S100000x31, .f32⟩
  | .hbm, ⟨55, _⟩ => ⟨S100000x31, .f32⟩
  | .hbm, ⟨56, _⟩ => ⟨S_, .f32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S100000x31 : S_.BroadcastsInDim S100000x31 (![] : Fin 0 → Fin S100000x31.rank)
  bcast_S100000x31_S100000x31x1_0_1 : S100000x31.BroadcastsInDim S100000x31x1 (![0, 1] : Fin 2 → Fin S100000x31x1.rank)
  bcast_S100000_S100000x1_0 : S100000.BroadcastsInDim S100000x1 (![0] : Fin 1 → Fin S100000x1.rank)
  bcast_S100000x1_S100000x31_0_1 : S100000x1.BroadcastsInDim S100000x31 (![0, 1] : Fin 2 → Fin S100000x31.rank)
  natLt_1_32 : 1 < 32
  reducesTo_S100000x31_S100000_d1 : S100000x31.ReducesTo [1] S100000
  h_S_ : 0 < S_.numel
  bcast_S_S100000 : S_.BroadcastsInDim S100000 (![] : Fin 0 → Fin S100000.rank)
  bcast_S100000x64_S100000x1x64_0_2 : S100000x64.BroadcastsInDim S100000x1x64 (![0, 2] : Fin 2 → Fin S100000x1x64.rank)
  bcast_S100000x1x64_S100000x31x64_0_1_2 : S100000x1x64.BroadcastsInDim S100000x31x64 (![0, 1, 2] : Fin 3 → Fin S100000x31x64.rank)
  reducesTo_S100000x31x64_S100000x31_d2 : S100000x31x64.ReducesTo [2] S100000x31
  reducesTo_S100000_S_d0 : S100000.ReducesTo [0] S_
  gather_S100000_S100000x31x1_S100000x31_n_0_n_n_0_2_1_wf : GatherDims.WF S100000 S100000x31x1 S100000x31 [] [0] [] [0] [] 2 ![1]
  gather_S100000x64_S100000x31x1_S100000x31x64_2_0_n_n_0_2_164_wf : GatherDims.WF S100000x64 S100000x31x1 S100000x31x64 [2] [0] [] [0] [] 2 ![1, 64]

variable [Facts₀]

def gather_S100000_S100000x31x1_S100000x31_n_0_n_n_0_2_1 : GatherDims S100000 S100000x31x1 S100000x31 where
  offsetDims := []
  collapsedSliceDims := [0]
  operandBatchingDims := []
  startIndicesBatchingDims := []
  startIndexMap := [0]
  indexVectorDim := 2
  sliceSizes := ![1]
  wf := gather_S100000_S100000x31x1_S100000x31_n_0_n_n_0_2_1_wf
def gather_S100000x64_S100000x31x1_S100000x31x64_2_0_n_n_0_2_164 : GatherDims S100000x64 S100000x31x1 S100000x31x64 where
  offsetDims := [2]
  collapsedSliceDims := [0]
  operandBatchingDims := []
  startIndicesBatchingDims := []
  startIndexMap := [0]
  indexVectorDim := 2
  sliceSizes := ![1, 64]
  wf := gather_S100000x64_S100000x31x1_S100000x31x64_2_0_n_n_0_2_164_wf

class Facts : Prop extends Facts₀ where

variable [Facts]
-- ==== Proof.Spec.lean ====
/-
  The mathematics both programs compute, over the extended reals, row by row.

  A row has 31 neighbours. From the squared distances `ss k` and the 0/1 positive marks `pf k` of a row:
  the logit of neighbour k is minus its distance, `-(√(ss k) + ε)`; the row's weights are
  `exp ((logit k - max over the row) / T)`; the row's loss is `-log (Σ weight·mark / Σ weight + ε)`.
  A row counts only when some but not all of its 31 neighbours are positive (`pointMask`); the result is the
  sum of the counted rows' losses divided by the larger of their number and one.

  The two programs differ in how they decide whether a row counts: one sums the marks as floats and compares
  the sum with 0 and 31 (`maskF`), the other counts the mark bits as 32-bit integers. Both are `pointMask`
  of the bits (`maskF_of_bits`, `maskI_of_count`).
-/
import Idealize.ShloMosaic.PureOps.Ideal.Laws
import Idealize.ShloMosaic.Lib.StableHlo.Predicate
import Idealize.ShloMosaic.Lib.ValueIdx

noncomputable section

namespace Cert.SoftNN

open Idealize.ShloMosaic

/-- ε, as its f32 word denotes: added to every distance, and to the positive share before the logarithm. -/
def epsv : EReal := Ideal.ofBits .f32 0x322BCC77#32
/-- The temperature T, as its f32 word denotes. -/
def tempv : EReal := Ideal.ofBits .f32 0x3DCCCCCD#32
/-- The word of -∞, from which a row's maximum is folded. -/
def botv : EReal := Ideal.ofBits .f32 0xFF800000#32
/-- The word of 1. -/
def onev : EReal := Ideal.ofBits .f32 0x3F800000#32

/-- A neighbour's logit: minus its distance. -/
def logit (s : EReal) : EReal := -(Ideal.sqrt s + epsv)

/-- The largest logit of a row. -/
def rowMax (ss : Fin 31 → EReal) : EReal := (Finset.univ : Finset (Fin 31)).fold max botv (fun k => logit (ss k))

/-- A neighbour's softmax weight, before normalisation. -/
def wexp (ss : Fin 31 → EReal) (k : Fin 31) : EReal := Ideal.exp (Ideal.div (logit (ss k) - rowMax ss) tempv)

/-- A row's loss: minus the logarithm of the positives' share of the weights (plus ε). -/
def rowLoss (ss pf : Fin 31 → EReal) : EReal :=
  -(Ideal.log (Ideal.div (∑ k, wexp ss k * pf k) (∑ k, wexp ss k) + epsv))

/-- Whether a row counts, decided on the FLOAT sum of its marks: 1 when the sum is above 0 and below 31. -/
def maskF (pf : Fin 31 → EReal) : EReal :=
  (((BitVec.setWidth 32 (IntOp.andi (Ideal.cmp .ogt (∑ k, pf k) (Ideal.ofBits .f32 0x00000000#32))
      (Ideal.cmp .olt (∑ k, pf k) (Ideal.ofBits .f32 0x41F80000#32)))).toInt : ℝ) : EReal)

/-- The number of positive neighbours of a row. -/
def posCount (b : Fin 31 → BitVec 1) : ℕ := (Finset.univ.filter fun q : Fin 31 => b q = 1#1).card

/-- Whether a row counts: some, but not all, of its neighbours are positive. -/
def pointMask (b : Fin 31 → BitVec 1) : EReal := if 0 < posCount b ∧ posCount b < 31 then 1 else 0

/-- The row an index of a vector [n] names, as a number below n. -/
def rowOf {n : ℕ} (j : (⟨1, ![n]⟩ : Shape).Idx) : Fin n := ⟨(j 0).val, (j 0).isLt⟩

/-- An index of a vector [n] is the index of the row it names. -/
theorem eq_ix1_rowOf {n : ℕ} (j : (⟨1, ![n]⟩ : Shape).Idx) : j = ValueIdx.ix1 (rowOf j) :=
  funext fun a => by match a with | ⟨0, _⟩ => rfl

/-- An entry of the [rows, 2] array a row's loss and mask are laid in: column 0 the counted loss, column 1 the mask. -/
def outEntry (ss pf : Fin 31 → EReal) (c : ℕ) : EReal := if c = 0 then rowLoss ss pf * maskF pf else maskF pf

/-- The result: the counted rows' losses summed, over the larger of their number and one. -/
def total (L PM : Fin 100000 → EReal) : EReal :=
  Ideal.div (∑ j : (⟨1, ![100000]⟩ : Shape).Idx, L (rowOf j) * PM (rowOf j))
    (max (∑ j : (⟨1, ![100000]⟩ : Shape).Idx, PM (rowOf j)) onev) * onev

/-- The result from its two sums over the rows. -/
theorem total_eq (L PM : Fin 100000 → EReal) (a b o₁ o₂ : EReal)
    (ha : a = ∑ j : (⟨1, ![100000]⟩ : Shape).Idx, L (rowOf j) * PM (rowOf j))
    (hb : b = ∑ j : (⟨1, ![100000]⟩ : Shape).Idx, PM (rowOf j)) (h₁ : o₁ = onev) (h₂ : o₂ = onev) :
    Ideal.div a (max b o₁) * o₂ = total L PM := by
  rw [ha, hb, h₁, h₂, total]

/-! ## The two ways of deciding whether a row counts -/

/-- A finite sum of real numbers, read in the extended reals, is the sum of the readings. -/
theorem coe_sum {ι : Type} (s : Finset ι) (f : ι → ℝ) : ∑ k ∈ s, ((f k : ℝ) : EReal) = ((∑ k ∈ s, f k : ℝ) : EReal) := by
  classical
  refine Finset.induction_on s (by simp) fun a s ha ih => ?_
  rw [Finset.sum_insert ha, Finset.sum_insert ha, ih, EReal.coe_add]

/-- A mark bit's value is 1 when set and 0 otherwise. -/
theorem toNat_bit (b : BitVec 1) : b.toNat = if b = 1#1 then 1 else 0 := by
  rcases BitVec.eq_zero_or_eq_one b with rfl | rfl <;> rfl

/-- The float sum of a row's marks is the number of its positives. -/
theorem sum_marks (b : Fin 31 → BitVec 1) : ∑ k, (((b k).toNat : ℝ) : EReal) = ((posCount b : ℝ) : EReal) := by
  rw [coe_sum]
  congr 1
  unfold posCount
  rw [Finset.card_filter, Nat.cast_sum]
  refine Finset.sum_congr rfl fun k _ => ?_
  rw [toNat_bit]

/-- The word 0x41F80000 denotes 31. -/
theorem ofBits_31 : Ideal.ofBits .f32 0x41F80000#32 = ((31 : ℝ) : EReal) := by
  simp [Ideal.ofBits, Ideal.ieee, -EReal.coe_mul]; norm_num

/-- Deciding on the float sum of the marks gives `pointMask` of the bits. -/
theorem maskF_of_bits (b : Fin 31 → BitVec 1) : maskF (fun k => (((b k).toNat : ℝ) : EReal)) = pointMask b := by
  unfold maskF pointMask
  rw [sum_marks, Ideal.ofBits_zero_f32, ofBits_31]
  have h0 : ((0 : EReal) < ((posCount b : ℝ) : EReal)) ↔ 0 < posCount b := by
    rw [← EReal.coe_zero, EReal.coe_lt_coe_iff]; exact Nat.cast_pos
  have h1 : (((posCount b : ℝ) : EReal) < ((31 : ℝ) : EReal)) ↔ posCount b < 31 := by
    rw [EReal.coe_lt_coe_iff]; exact_mod_cast Iff.rfl
  simp only [Ideal.cmp, h0, h1]
  by_cases c0 : 0 < posCount b <;> by_cases c1 : posCount b < 31 <;> simp [c0, c1, IntOp.andi]

/-- Deciding on the integer count of the marks gives `pointMask` of the bits. -/
theorem maskI_of_count (b : Fin 31 → BitVec 1) (cnt : BitVec 32) (h : cnt.toNat = posCount b) :
    ((((IntOp.andi (IntOp.cmpi .sgt cnt 0#32) (IntOp.cmpi .slt cnt 31#32)).toNat : ℝ)) : EReal) = pointMask b := by
  unfold pointMask
  have hle : posCount b ≤ 31 := by
    unfold posCount; exact (Finset.card_le_univ _).trans (by simp)
  have hc : cnt.toNat < 2 ^ 31 := by omega
  have g0 : IntOp.cmpi .sgt cnt 0#32 = 1#1 ↔ 0 < posCount b := by
    rw [StableHlo.Predicate.sgt_iff_toNat hc (by decide)]; rw [h]; simp
  have g1 : IntOp.cmpi .slt cnt 31#32 = 1#1 ↔ posCount b < 31 := by
    rw [StableHlo.Predicate.slt_iff_toNat hc (by decide)]; rw [h]; simp
  by_cases c0 : 0 < posCount b <;> by_cases c1 : posCount b < 31
  · rw [g0.2 c0, g1.2 c1, if_pos ⟨c0, c1⟩]; simp [IntOp.andi]
  · rw [g0.2 c0, ValueIdx.eq_zero_of_ne_one (fun e => c1 (g1.1 e)), if_neg (fun e => c1 e.2)]; simp [IntOp.andi]
  · rw [ValueIdx.eq_zero_of_ne_one (fun e => c0 (g0.1 e)), if_neg (fun e => c0 e.1)]; simp [IntOp.andi]
  · rw [ValueIdx.eq_zero_of_ne_one (fun e => c0 (g0.1 e)), if_neg (fun e => c0 e.1)]; simp [IntOp.andi]

end Cert.SoftNN

end
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.KernelRow.lean ====
/-
  What the kernel's body stores, read at an entry of the [2000, 2] output block.

  The body's one payload is cut into the values it passes through, each named after what it is for the row
  mathematics (Proof/Spec.lean): the marks `M`, the distances `D`, the logits `LG`, the row maxima `MX`, the
  weights `EX`, their sums with and without the marks `POS` and `NEG`, the row losses `LOSS`, the float counts
  `CNT` and the row masks `PMv`. Each is read at row r (and neighbour k) of the block as the corresponding function
  of row r of the two input blocks; the payload puts `LOSS · PMv` in column 0 and `PMv` in column 1.
-/
import proofs.«431074_j32298154066765_3_alg».proof.Proof.Gen.KernelIdeal.Skeleton
import proofs.«431074_j32298154066765_3_alg».proof.Proof.Spec
import proofs.«431074_j32298154066765_3_alg».proof.Proof.LibRowOps

noncomputable section

namespace Cert.KernelIdeal.RowValue

open Cert.KernelIdeal Cert.KernelIdeal.Gen Idealize.ShloMosaic Idealize.ShloMosaic.ValueIdx Cert.SoftNN Cert.RowOps

/-- Row r of a [2000, 31] block. -/
def row (x : Vec Ideal S2000x31 .f32) (r : Fin 2000) : Fin 31 → EReal := fun k => x (ix2 r k)

/-! ## The payload's values -/

/-- The marks. -/
def M (x1 : Vec Ideal S2000x31 .f32) : FVec Ideal S2000x31 .f32 := shapeCast S2000x31 x1 shapeCasts_S2000x31_S2000x31
/-- The distances. -/
def D (x0 : Vec Ideal S2000x31 .f32) : FVec Ideal S2000x31 .f32 :=
  addf (sqrt (shapeCast S2000x31 x0 shapeCasts_S2000x31_S2000x31)) (broadcast S2000x31 (Scalar.ofBits .f32 0x322BCC77#32))
/-- The logits. -/
def LG (x0 : Vec Ideal S2000x31 .f32) : FVec Ideal S2000x31 .f32 :=
  subf (broadcast S2000x31 (Scalar.ofBits .f32 0x00000000#32)) (D x0)
/-- The row maxima of the logits, as a column. -/
def MX (x0 : Vec Ideal S2000x31 .f32) : FVec Ideal S2000x1 .f32 :=
  shapeCast S2000x1 (multiReduction .maximumf [1] S2000 (LG x0) 0xFF800000#32 reduces_S2000x31_S2000 (.inl rfl) rfl) shapeCasts_S2000_S2000x1
/-- The weights. -/
def EX (x0 : Vec Ideal S2000x31 .f32) : FVec Ideal S2000x31 .f32 :=
  exp (divf (subf (LG x0) (broadcastTo S2000x31 (MX x0) broadcasts_S2000x1_S2000x31)) (broadcast S2000x31 (Scalar.ofBits .f32 0x3DCCCCCD#32)))
/-- The positives' weights summed over a row, as a column. -/
def POS (x0 x1 : Vec Ideal S2000x31 .f32) : FVec Ideal S2000x1 .f32 :=
  shapeCast S2000x1 (multiReduction .add [1] S2000 (mulf (EX x0) (M x1)) 0x00000000#32 reduces_S2000x31_S2000 (.inl rfl) rfl) shapeCasts_S2000_S2000x1
/-- All the weights summed over a row, as a column. -/
def NEG (x0 : Vec Ideal S2000x31 .f32) : FVec Ideal S2000x1 .f32 :=
  shapeCast S2000x1 (multiReduction .add [1] S2000 (EX x0) 0x00000000#32 reduces_S2000x31_S2000 (.inl rfl) rfl) shapeCasts_S2000_S2000x1
/-- The row losses, as a column. -/
def LOSS (x0 x1 : Vec Ideal S2000x31 .f32) : FVec Ideal S2000x1 .f32 :=
  subf (broadcast S2000x1 (Scalar.ofBits .f32 0x00000000#32))
    (log (addf (divf (POS x0 x1) (NEG x0)) (broadcast S2000x1 (Scalar.ofBits .f32 0x322BCC77#32))))
/-- The float counts of the marks, as a column. -/
def CNT (x1 : Vec Ideal S2000x31 .f32) : FVec Ideal S2000x1 .f32 :=
  shapeCast S2000x1 (multiReduction .add [1] S2000 (M x1) 0x00000000#32 reduces_S2000x31_S2000 (.inl rfl) rfl) shapeCasts_S2000_S2000x1
/-- The row masks, as a column of floats. -/
def PMv (x1 : Vec Ideal S2000x31 .f32) : FVec Ideal S2000x1 .f32 :=
  sitofp .f32 (extui 32 (andi (cmpf .ogt (CNT x1) (broadcast S2000x1 (Scalar.ofBits .f32 0x00000000#32)))
    (cmpf .olt (CNT x1) (broadcast S2000x1 (Scalar.ofBits .f32 0x41F80000#32)))) natLt_1_32)

/-- The payload is the two columns `LOSS · PMv` and `PMv` side by side. -/
theorem pay_eq (x0 x1 : Vec Ideal S2000x31 .f32) :
    k0_pay1 (F := Ideal) x0 x1
      = concatenate S2000x2 1 [⟨S2000x1, mulf (LOSS x0 x1) (PMv x1)⟩, ⟨S2000x1, PMv x1⟩] concatenates_S2000x1_S2000x1_S2000x2_d1 := rfl

/-! ## Each value at row r -/

theorem M_apply (x1 : Vec Ideal S2000x31 .f32) (r : Fin 2000) (k : Fin 31) : M x1 (ix2 r k) = x1 (ix2 r k) := by
  unfold M; rw [shapeCast_self]

theorem LG_apply (x0 : Vec Ideal S2000x31 .f32) (r : Fin 2000) (k : Fin 31) : LG x0 (ix2 r k) = logit (row x0 r k) := by
  unfold LG D; rw [shapeCast_self]
  show Ideal.ofBits .f32 0x00000000#32 - (Ideal.sqrt (x0 (ix2 r k)) + Ideal.ofBits .f32 0x322BCC77#32) = _
  rw [Ideal.ofBits_zero_f32, sub_eq_add_neg, zero_add]; rfl

theorem MX_apply (x0 : Vec Ideal S2000x31 .f32) (r : Fin 2000) (u : Fin 1) : MX x0 (ix2 r u) = rowMax (row x0 r) := by
  unfold MX
  refine (shapeCast_a_a1_apply _ shapeCasts_S2000_S2000x1 r u).trans ?_
  refine (rowMax_apply (LG x0) 0xFF800000#32 reduces_S2000x31_S2000 (.inl rfl) rfl r).trans ?_
  unfold rowMax botv
  exact congrArg (fun f => Finset.fold max (Ideal.ofBits .f32 0xFF800000#32) f (Finset.univ : Finset (Fin 31))) (funext fun k => LG_apply x0 r k)

theorem EX_apply (x0 : Vec Ideal S2000x31 .f32) (r : Fin 2000) (k : Fin 31) : EX x0 (ix2 r k) = wexp (row x0 r) k := by
  unfold EX
  show Ideal.exp (Ideal.div (LG x0 (ix2 r k) - broadcastTo S2000x31 (MX x0) broadcasts_S2000x1_S2000x31 (ix2 r k)) (Ideal.ofBits .f32 0x3DCCCCCD#32)) = _
  rw [broadcastTo_a1_ab_apply (by decide) (MX x0) broadcasts_S2000x1_S2000x31 r k, MX_apply, LG_apply]; rfl

theorem POS_apply (x0 x1 : Vec Ideal S2000x31 .f32) (r : Fin 2000) (u : Fin 1) :
    POS x0 x1 (ix2 r u) = ∑ k, wexp (row x0 r) k * row x1 r k := by
  unfold POS
  refine (shapeCast_a_a1_apply _ shapeCasts_S2000_S2000x1 r u).trans ?_
  refine (rowSum_apply (mulf (EX x0) (M x1)) 0x00000000#32 reduces_S2000x31_S2000 (.inl rfl) rfl r).trans ?_
  refine Finset.sum_congr rfl fun k _ => ?_
  show EX x0 (ix2 r k) * M x1 (ix2 r k) = _
  rw [EX_apply, M_apply]; rfl

theorem NEG_apply (x0 : Vec Ideal S2000x31 .f32) (r : Fin 2000) (u : Fin 1) : NEG x0 (ix2 r u) = ∑ k, wexp (row x0 r) k := by
  unfold NEG
  refine (shapeCast_a_a1_apply _ shapeCasts_S2000_S2000x1 r u).trans ?_
  refine (rowSum_apply (EX x0) 0x00000000#32 reduces_S2000x31_S2000 (.inl rfl) rfl r).trans ?_
  exact Finset.sum_congr rfl fun k _ => EX_apply x0 r k

theorem LOSS_apply (x0 x1 : Vec Ideal S2000x31 .f32) (r : Fin 2000) (u : Fin 1) :
    LOSS x0 x1 (ix2 r u) = rowLoss (row x0 r) (row x1 r) := by
  unfold LOSS
  show Ideal.ofBits .f32 0x00000000#32 - Ideal.log (Ideal.div (POS x0 x1 (ix2 r u)) (NEG x0 (ix2 r u)) + Ideal.ofBits .f32 0x322BCC77#32) = _
  rw [POS_apply, NEG_apply, Ideal.ofBits_zero_f32, sub_eq_add_neg, zero_add]; rfl

theorem CNT_apply (x1 : Vec Ideal S2000x31 .f32) (r : Fin 2000) (u : Fin 1) : CNT x1 (ix2 r u) = ∑ k, row x1 r k := by
  unfold CNT
  refine (shapeCast_a_a1_apply _ shapeCasts_S2000_S2000x1 r u).trans ?_
  refine (rowSum_apply (M x1) 0x00000000#32 reduces_S2000x31_S2000 (.inl rfl) rfl r).trans ?_
  exact Finset.sum_congr rfl fun k _ => M_apply x1 r k

theorem PMv_apply (x1 : Vec Ideal S2000x31 .f32) (r : Fin 2000) (u : Fin 1) : PMv x1 (ix2 r u) = maskF (row x1 r) := by
  unfold PMv maskF
  show (((BitVec.setWidth 32 (IntOp.andi (Ideal.cmp .ogt (CNT x1 (ix2 r u)) (Ideal.ofBits .f32 0x00000000#32))
      (Ideal.cmp .olt (CNT x1 (ix2 r u)) (Ideal.ofBits .f32 0x41F80000#32)))).toInt : ℝ) : EReal) = _
  rw [CNT_apply]

/-! ## The payload at an entry -/

/-- Column 0 of row r: the row's loss, if the row counts. -/
theorem pay_col0 (x0 x1 : Vec Ideal S2000x31 .f32) (r : Fin 2000) :
    k0_pay1 (F := Ideal) x0 x1 (ix2 r (0 : Fin 2)) = rowLoss (row x0 r) (row x1 r) * maskF (row x1 r) := by
  rw [pay_eq]
  refine (concat_cols_left _ _ concatenates_S2000x1_S2000x1_S2000x2_d1 r).trans ?_
  show LOSS x0 x1 (ix2 r (0 : Fin 1)) * PMv x1 (ix2 r (0 : Fin 1)) = _
  rw [LOSS_apply, PMv_apply]

/-- Column 1 of row r: whether the row counts. -/
theorem pay_col1 (x0 x1 : Vec Ideal S2000x31 .f32) (r : Fin 2000) :
    k0_pay1 (F := Ideal) x0 x1 (ix2 r (1 : Fin 2)) = maskF (row x1 r) := by
  rw [pay_eq]
  refine (concat_cols_right _ _ concatenates_S2000x1_S2000x1_S2000x2_d1 r).trans ?_
  exact PMv_apply x1 r 0

end Cert.KernelIdeal.RowValue

end
-- ==== Proof.KernelArray.lean ====
/-
  The kernel's output array after the run: row n holds, in column 0, the row's loss if the row counts and, in
  column 1, whether it counts — each a function of row n of the two arrays the kernel is launched on (the squared
  distances and the float marks).

  Grid point t handles rows 2000·t … 2000·t + 1999: its two input blocks are those rows of the two arrays, and what
  it writes back is those rows of the output. The fifty blocks tile the output, so the array after the run is that
  function everywhere.
-/
import proofs.«431074_j32298154066765_3_alg».proof.Proof.Gen.KernelIdeal.Frame
import proofs.«431074_j32298154066765_3_alg».proof.Proof.KernelRow

set_option maxRecDepth 16384

noncomputable section

namespace Cert.KernelIdeal.ArrayValue

open Cert.KernelIdeal Cert.KernelIdeal.Gen Cert.KernelIdeal.RowValue Idealize.ShloMosaic Idealize.ShloMosaic.TcCoe
open Idealize.ShloMosaic.ValueIdx Idealize.SL.Sem Cert.SoftNN

variable (m : (ℓ : Loc nD τ sig) → Buf (Elt Ideal) ℓ)

/-- Row n of a [100000, 31] array. -/
def bigRow (A : S100000x31.Idx → Elt Ideal .f32) (n : Fin 100000) : Fin 31 → EReal := fun k => A (ix2 n k)

/-- The output array as a function of the squared distances `SS` and the float marks `PF`. -/
def Gout (SS PF : S100000x31.Idx → Elt Ideal .f32) : S100000x2.Idx → Elt Ideal .f32 := fun i =>
  outEntry (bigRow SS ⟨(i 0).val, idx2_lt0 i⟩) (bigRow PF ⟨(i 0).val, idx2_lt0 i⟩) (i 1).val

/-- An entry of a block's payload is the entry of `Gout` at the block's offset, when the block's rows are the arrays' rows
    at that offset. -/
theorem block_entry (x0 x1 : Vec Ideal S2000x31 .f32) (SS PF : S100000x31.Idx → Elt Ideal .f32) (b : ℕ)
    (h0 : ∀ (r : Fin 2000) (k : Fin 31) (n : Fin 100000), n.val = b * 2000 + r.val → x0 (ix2 r k) = SS (ix2 n k))
    (h1 : ∀ (r : Fin 2000) (k : Fin 31) (n : Fin 100000), n.val = b * 2000 + r.val → x1 (ix2 r k) = PF (ix2 n k))
    (y : S2000x2.Idx) (i : S100000x2.Idx) (hi0 : (i 0).val = b * 2000 + (y 0).val) (hi1 : (i 1).val = (y 1).val) :
    k0_pay1 (F := Ideal) x0 x1 y = Gout SS PF i := by
  obtain ⟨r, q, rfl⟩ : ∃ (r : Fin 2000) (q : Fin 2), y = ix2 r q := ⟨y 0, y 1, eq_ix2 y⟩
  change (i 0).val = b * 2000 + r.val at hi0
  change (i 1).val = q.val at hi1
  have hr0 : row x0 r = bigRow SS ⟨(i 0).val, idx2_lt0 i⟩ := funext fun k => h0 r k _ hi0
  have hr1 : row x1 r = bigRow PF ⟨(i 0).val, idx2_lt0 i⟩ := funext fun k => h1 r k _ hi0
  unfold Gout outEntry
  rw [← hr0, ← hr1, hi1]
  match q with
  | ⟨0, _⟩ => exact (pay_col0 x0 x1 r).trans (if_pos rfl).symm
  | ⟨1, _⟩ => exact (pay_col1 x0 x1 r).trans (if_neg Nat.one_ne_zero).symm

theorem hz : (![0, 0] : Fin 2 → Nat) = fun _ => 0 := funext fun a => by fin_cases a <;> rfl

/-- The printed index maps over the grid: every window is at block row t and block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0 ∧ win0_2.index t (0 : Fin 2) ≤ 49 :=
  (by decide +kernel : ∀ t : Fin grid0.N, _)

/-- Every block row is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point t writes back is block t of `Gout` of the two arrays as the kernel finds them. -/
theorem flushed_eq (c : Dev nD) (t : Fin cfg0.N) :
    (dats m 0 c).flushed 2 t = ((cfg0.win 2).blk t).view.read (Elt Ideal) (Gout (V m c main_v11) (V m c main_v22)) := by
  show (cfg0.win 2).cut (grid0.coords t) ((dats m 0 c).after 2 t) = _
  rw [after0_2]
  unfold out0_2
  rw [View.canon_unit_zero hz]
  simp only [View.ld_unit_zero (S := S2000x31) hz]
  obtain ⟨e0, e1, e2, e3, e4, e5⟩ := idx_facts t
  funext j
  show k0_pay1 (F := Ideal) (iblk m c 0 t) (iblk m c 1 t) j = Gout (V m c main_v11) (V m c main_v22) (((cfg0.win 2).blk t).view.emb j)
  refine block_entry (iblk m c 0 t) (iblk m c 1 t) (V m c main_v11) (V m c main_v22) (win0_2.index t (0 : Fin 2)) ?_ ?_
    j (((cfg0.win 2).blk t).view.emb j) ?_ ?_
  · intro r k n hn
    show V m c main_v11 (((cfg0.win 0).blk t).view.emb (ix2 r k)) = V m c main_v11 (ix2 n k)
    refine congrArg (V m c main_v11) (funext fun a => Fin.ext ?_)
    match a with
    | ⟨0, _⟩ => show win0_0.index t (0 : Fin 2) * 2000 + 1 * r.val = n.val; omega
    | ⟨1, _⟩ => show win0_0.index t (1 : Fin 2) * 31 + 1 * k.val = k.val; omega
  · intro r k n hn
    show V m c main_v22 (((cfg0.win 1).blk t).view.emb (ix2 r k)) = V m c main_v22 (ix2 n k)
    refine congrArg (V m c main_v22) (funext fun a => Fin.ext ?_)
    match a with
    | ⟨0, _⟩ => show win0_1.index t (0 : Fin 2) * 2000 + 1 * r.val = n.val; omega
    | ⟨1, _⟩ => show win0_1.index t (1 : Fin 2) * 31 + 1 * k.val = k.val; omega
  · show win0_2.index t (0 : Fin 2) * 2000 + 1 * (j 0).val = win0_2.index t (0 : Fin 2) * 2000 + (j 0).val; omega
  · show win0_2.index t (1 : Fin 2) * 2 + 1 * (j 1).val = (j 1).val; omega

/-- An index of the output is in point t's block iff each coordinate is in the block's range on its axis. -/
theorem mem_blk (t : Fin cfg0.N) (i : S100000x2.Idx) :
    i ∈ ((cfg0.win 2).blk t).view.set ↔ ∀ a : Fin 2, win0_2.index t a * S2000x2.size a ≤ (i a).val ∧ (i a).val < win0_2.index t a * S2000x2.size a + S2000x2.size a := by
  show i ∈ ((View.whole main_v23).slice (win0_2.rect t)).set ↔ _
  rw [View.set_slice_whole, Rect.mem_set_unit]
  exact Iff.rfl

/-- The fifty blocks cover the output: row n is in the block of point n / 2000. -/
theorem cover (i : S100000x2.Idx) : ∃ t : Fin cfg0.N, (cfg0.win 2).flush t = true ∧ i ∈ ((cfg0.win 2).blk t).view.set := by
  have hi0 : (i 0).val < 100000 := (i 0).isLt
  have hi1 : (i 1).val < 2 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 2 ≤ (i 1).val ∧ (i 1).val < win0_2.index t (1 : Fin 2) * 2 + 2; omega

/-- The output array after the run. -/
theorem final (c : Dev nD) : (dats m 0 c).arrAt 2 cfg0.N = Gout (V m c main_v11) (V m c main_v22) :=
  (dats m 0 c).arrAt_eq_of_cover 2 (Gout (V m c main_v11) (V m c main_v22)) (fun t _ => flushed_eq m c t) cover

end Cert.KernelIdeal.ArrayValue

end
-- ==== Proof.KernelRun.lean ====
/-
  The kernel program's result: the host lines before the kernel compute the squared distances and the float marks
  from the arguments; the kernel lays each row's counted loss and mask in an [100000, 2] array
  (Proof/KernelArray.lean); the host lines after it sum the two columns over the rows, take the larger of the
  second sum and one, and divide. So the result is `total` of the rows' losses and masks (Proof/Spec.lean).

  The squared distances and the mark bits are the same host operations of the arguments in both programs; they are
  named here by the reference's stages %28 and %9, which are those operations.
-/
import proofs.«431074_j32298154066765_3_alg».proof.Proof.Gen.KernelIdeal.Frame
import proofs.«431074_j32298154066765_3_alg».proof.Proof.Gen.ReferenceIdeal.Read
import proofs.«431074_j32298154066765_3_alg».proof.Proof.KernelArray
import Idealize.ShloMosaic.Lib.StableHlo.Run

set_option maxRecDepth 16384

noncomputable section

namespace Cert.KernelIdeal.RunValue

open Cert.KernelIdeal Cert.KernelIdeal.Gen Cert.KernelIdeal.RowValue Cert.KernelIdeal.ArrayValue
open Idealize.ShloMosaic Idealize.ShloMosaic.TcCoe Idealize.ShloMosaic.StableHlo
open Idealize.ShloMosaic.ValueIdx Idealize.SL.Sem Cert.SoftNN Cert.RowOps

/-! ## The host lines after the kernel -/

/-- Column c of an [100000, 2] array, cut out and recast as a vector. -/
def colVec (OUT : S100000x2.Idx → Elt Ideal .f32) (c : Fin 2) (h : S100000x2.Slices ![0, c.val] S100000x1) :
    S100000.Idx → Elt Ideal .f32 :=
  shapeCast S100000 (extractStridedSlice S100000x1 ![0, c.val] OUT h) shapeCasts_S100000x1_S100000

/-- The host's sum of a vector over all its entries, from zero. -/
def hsum (X : S100000.Idx → Elt Ideal .f32) : S_.Idx → Elt Ideal .f32 :=
  Host.reduceAdd (F := Ideal) X (constant (F := Ideal) S_ .f32 0x00000000#32) reducesTo_S100000_S_d0 h_S_

/-- The quotient of a sum by the larger of a count and one (times one). -/
def finish (A B : S_.Idx → Elt Ideal .f32) : S_.Idx → Elt Ideal .f32 :=
  mulf (Host.divf A (maximumf B (constant (F := Ideal) S_ .f32 0x3F800000#32))) (constant (F := Ideal) S_ .f32 0x3F800000#32)

/-- The host lines after the kernel, as one function of the kernel's output array: the two columns summed, the
    quotient taken. -/
def tail (OUT : S100000x2.Idx → Elt Ideal .f32) : S_.Idx → Elt Ideal .f32 :=
  finish (hsum (colVec OUT 0 slices_S100000x2_S100000x1_0_0)) (hsum (colVec OUT 1 slices_S100000x2_S100000x1_0_1))

/-- From any contents with the output array at `OUT`, the lines after the kernel leave `tail OUT` in the result. -/
theorem tail_of (W : Valuation τ sig (Elt Ideal)) (OUT : S100000x2.Idx → Elt Ideal .f32)
    (h : W (Proc.devRef .tc main_v23) = OUT) :
    StableHlo.after (hostOps1 (F := Ideal)) W (Proc.devRef .tc main_v32) = tail OUT := by
  after_results
  rw [h]
  rfl

/-- The quotient at the one index. -/
theorem finish_apply (A B : S_.Idx → Elt Ideal .f32) (i : S_.Idx) :
    finish A B i = Ideal.div (A i) (max (B i) onev) * onev := rfl

/-- Column c as a vector reads at j the array at (row j, c). -/
theorem colVec_apply (OUT : S100000x2.Idx → Elt Ideal .f32) (c : Fin 2) (h : S100000x2.Slices ![0, c.val] S100000x1) (j : S100000.Idx) :
    colVec OUT c h j = OUT (ix2 (rowOf j) c) := by
  unfold colVec
  refine (congrArg (shapeCast S100000 (extractStridedSlice S100000x1 ![0, c.val] OUT h) shapeCasts_S100000x1_S100000) (eq_ix1_rowOf j)).trans ?_
  refine (shapeCast_a1_a_apply _ shapeCasts_S100000x1_S100000 (rowOf j)).trans ?_
  exact slice_col_apply c OUT h (rowOf j)

/-- The host's sum of a vector over all its 100000 entries, from zero, is the sum. -/
theorem hsum_apply (X : S100000.Idx → Elt Ideal .f32) (i : S_.Idx) : hsum X i = ∑ j, X j := by
  unfold hsum
  simp only [Host.reduceAdd, Ideal.hostReduceAdd_def]
  rw [Ideal.hostReduceAdd_total reducesTo_S100000_S_d0 (fun b => b.elim0)]
  show Ideal.ofBits .f32 0x00000000#32 + _ = _
  rw [Ideal.ofBits_zero_f32, zero_add]

/-- An entry of the kernel's output array: row n, column c. -/
theorem Gout_apply (SS PF : S100000x31.Idx → Elt Ideal .f32) (n : Fin 100000) (c : Fin 2) :
    Gout SS PF (ix2 n c) = outEntry (bigRow SS n) (bigRow PF n) c.val := rfl

/-- The lines after the kernel, applied to the kernel's output, give `total` of the rows' losses and masks. -/
theorem tail_Gout (SS PF : S100000x31.Idx → Elt Ideal .f32) (i : S_.Idx) :
    tail (Gout SS PF) i
      = total (fun n => rowLoss (bigRow SS n) (bigRow PF n)) (fun n => maskF (bigRow PF n)) := by
  unfold tail
  rw [finish_apply, hsum_apply, hsum_apply]
  refine total_eq _ _ _ _ _ _ (Finset.sum_congr rfl fun j _ => ?_) (Finset.sum_congr rfl fun j _ => ?_) rfl rfl
  · rw [colVec_apply, Gout_apply]
    exact if_pos rfl
  · rw [colVec_apply, Gout_apply]
    exact if_neg Nat.one_ne_zero

/-! ## The two arrays the kernel is launched on -/

variable (m : (ℓ : Loc nD τ sig) → Buf (Elt Ideal) ℓ) (ρ : Dev nD → PrngReg)

/-- The squared distances, as the host lines before the kernel compute them from the arguments. -/
def SSof (c : Dev nD) : S100000x31.Idx → Elt Ideal .f32 :=
  Cert.ReferenceIdeal.Read.val_main_v28 (F := Ideal) (m ((c.tc : Thread nD τ).loc main_arg0)) (m ((c.tc : Thread nD τ).loc main_arg2))

/-- The positive marks, as bits, as the host lines before the kernel compute them from the arguments. -/
def Bof (c : Dev nD) : S100000x31.Idx → BitVec 1 :=
  Cert.ReferenceIdeal.Read.val_main_v9 (F := Ideal) (m ((c.tc : Thread nD τ).loc main_arg1)) (m ((c.tc : Thread nD τ).loc main_arg2))

/-- The positive marks as floats. -/
def PFof (c : Dev nD) : S100000x31.Idx → Elt Ideal .f32 := uitofp (F := Ideal) .f32 (Bof m c)

set_option maxHeartbeats 4000000 in
/-- The kernel's first operand is the squared distances. -/
theorem V_sumsq (c : Dev nD) : (V m c main_v11 : S100000x31.Idx → Elt Ideal .f32) = SSof m c := by
  show StableHlo.after hostOps0 (fun b => m (c, b)) (Proc.devRef .tc main_v11) = _
  after_results
  rfl

set_option maxHeartbeats 4000000 in
/-- The kernel's second operand is the positive marks as floats. -/
theorem V_marks (c : Dev nD) : (V m c main_v22 : S100000x31.Idx → Elt Ideal .f32) = PFof m c := by
  show StableHlo.after hostOps0 (fun b => m (c, b)) (Proc.devRef .tc main_v22) = _
  after_results
  rfl

/-! ## The run -/

/-- The program's result after the run. -/
def result (c : Dev nD) : S_.Idx → Elt Ideal .f32 := fun _ =>
  total (fun n => rowLoss (bigRow (SSof m c) n) (bigRow (PFof m c) n)) (fun n => maskF (bigRow (PFof m c) n))

/-- What the lines after the kernel leave in the result buffer. -/
theorem afterTail_result (c : Dev nD) :
    Pipeline.afterTail₀ cfgs (dats m) 0 (V0 m) [hostOps1] c main_v32 = result m c := by
  unfold Pipeline.afterTail₀
  have h := tail_of (Pipeline.withArrays (cfgs 0).spec c (V0 m c) fun w => (dats m 0 c).arrAt w (cfgs 0).N) ((dats m 0 c).arrAt 2 cfg0.N)
    (Pipeline.withArrays_arr spec0 launch0.win.arr_inj c _ _ 2)
  refine Eq.trans ?_ (h.trans ?_)
  · simp only [List.flatten_cons, List.flatten_nil, List.append_nil]
  · rw [final, V_sumsq, V_marks]
    funext i
    exact tail_Gout _ _ i

/-- Every weakly fair execution terminates with the result at `result` and the arguments unchanged. -/
theorem run : θ_run defs (onTc (τ := τ) (main (F := Ideal))) ⟨m, fun _ => 0, ρ⟩ fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v32 (Pipeline.mem_restRefs_of main_v32 (by decide) (by decide))).trans (afterTail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference's result as the row mathematics of Proof/Spec.lean.

  The reference computes the squared distances (stage %28) and the positive marks (stage %9, bits) from its
  arguments, and everything after them row by row. Reading its stages at an index, one after the other: the
  logits, the row maximum (the host's maximum-reduce, a fold of max from -∞), the weights, their two row sums, the row
  loss; the integer count of a row's marks and the row mask; and last the two sums over the 100000 rows, the
  maximum with one, the quotient.
-/
import proofs.«431074_j32298154066765_3_alg».proof.Proof.Gen.ReferenceIdeal.Read
import proofs.«431074_j32298154066765_3_alg».proof.Proof.Spec
import proofs.«431074_j32298154066765_3_alg».proof.Proof.LibRowOps
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open Cert.SoftNN Cert.RowOps

variable (x0 : (⟨S100000x64, .f32⟩ : BufTy).Contents (Elt Ideal)) (x1 : (⟨S100000, .i32⟩ : BufTy).Contents (Elt Ideal))
  (x2 : (⟨S100000x31, .i32⟩ : BufTy).Contents (Elt Ideal))

/-- Row n of the squared distances. -/
def ssRow (n : Fin 100000) (k : Fin 31) : EReal := val_main_v28 (F := Ideal) x0 x2 (ix2 n k)
/-- Row n of the positive marks, as bits. -/
def bitRow (n : Fin 100000) (k : Fin 31) : BitVec 1 := val_main_v9 (F := Ideal) x1 x2 (ix2 n k)
/-- Row n of the positive marks, as floats. -/
def markRow (n : Fin 100000) (k : Fin 31) : EReal := (((bitRow x1 x2 n k).toNat : ℝ) : EReal)

/-! ## The logits, their row maximum, the weights -/

theorem logit_at (n : Fin 100000) (k : Fin 31) : val_main_v32 (F := Ideal) x0 x2 (ix2 n k) = logit (ssRow x0 x2 n k) := by
  rw [val_main_v32_apply, val_main_v31_apply, val_main_v29_apply, val_main_v30_apply]
  unfold ssRow
  generalize val_main_v28 (F := Ideal) x0 x2 (ix2 n k) = s
  rfl

theorem rowMax_at (n : Fin 100000) : val_main_v33 (F := Ideal) x0 x2 (ix1 n) = rowMax (ssRow x0 x2 n) := by
  unfold val_main_v33
  refine (hostRowMax_apply (val_main_v32 (F := Ideal) x0 x2) (val_main_cst_7 (F := Ideal)) reducesTo_S100000x31_S100000_d1 (by decide) h_S_ n).trans ?_
  have hf : (fun k : Fin 31 => val_main_v32 (F := Ideal) x0 x2 (ix2 n k)) = fun k => logit (ssRow x0 x2 n k) :=
    funext fun k => logit_at x0 x2 n k
  rw [hf]
  generalize ssRow x0 x2 n = f
  rfl

theorem wexp_at (n : Fin 100000) (k : Fin 31) : val_main_v39 (F := Ideal) x0 x2 (ix2 n k) = wexp (ssRow x0 x2 n) k := by
  rw [val_main_v39_apply, val_main_v38_apply, val_main_v36_apply, val_main_v37_apply, val_main_v35_apply,
    val_main_v34_apply, logit_at]
  have e : idx_main_v34 (idx_main_v35 (ix2 n k)) = ix1 n := funext fun a => Fin.ext (by match a with | ⟨0, _⟩ => rfl)
  rw [e, rowMax_at]
  generalize ssRow x0 x2 n = f
  rfl

/-! ## The two row sums and the row loss -/

theorem pos_at (n : Fin 100000) : val_main_v42 (F := Ideal) x0 x1 x2 (ix1 n) = ∑ k, wexp (ssRow x0 x2 n) k * markRow x1 x2 n k := by
  rw [val_main_v42_apply]
  have hz : val_main_cst_9 (F := Ideal) (Shape.Idx.first h_S_) = 0 := Ideal.ofBits_zero_f32
  rw [hz, zero_add]
  refine Finset.sum_congr rfl fun k _ => ?_
  have e : idx_main_v42 (ix1 n) k = ix2 n k := funext fun a => Fin.ext (by match a with | ⟨0, _⟩ => rfl | ⟨1, _⟩ => rfl)
  rw [e, val_main_v41_apply, val_main_v40_apply, wexp_at]
  unfold markRow bitRow
  generalize wexp (ssRow x0 x2 n) k = w
  generalize val_main_v9 (F := Ideal) x1 x2 (ix2 n k) = bb
  rfl

theorem neg_at (n : Fin 100000) : val_main_v43 (F := Ideal) x0 x2 (ix1 n) = ∑ k, wexp (ssRow x0 x2 n) k := by
  rw [val_main_v43_apply]
  have hz : val_main_cst_10 (F := Ideal) (Shape.Idx.first h_S_) = 0 := Ideal.ofBits_zero_f32
  rw [hz, zero_add]
  refine Finset.sum_congr rfl fun k _ => ?_
  have e : idx_main_v43 (ix1 n) k = ix2 n k := funext fun a => Fin.ext (by match a with | ⟨0, _⟩ => rfl | ⟨1, _⟩ => rfl)
  rw [e, wexp_at]

theorem loss_at (n : Fin 100000) : val_main_v48 (F := Ideal) x0 x1 x2 (ix1 n) = rowLoss (ssRow x0 x2 n) (markRow x1 x2 n) := by
  rw [val_main_v48_apply, val_main_v47_apply, val_main_v46_apply, val_main_v44_apply, val_main_v45_apply, pos_at, neg_at]
  generalize ssRow x0 x2 n = f
  generalize markRow x1 x2 n = g
  rfl

/-! ## The row mask: the integer count of a row's marks, compared with 0 and 31 -/

theorem count_at (n : Fin 100000) : (val_main_v11 (F := Ideal) x1 x2 (ix1 n)).toNat = posCount (bitRow x1 x2 n) := by
  unfold val_main_v11 val_main_v10 val_main_c_1
  refine (StableHlo.Predicate.toNat_reduce_count_cols (by decide) (val_main_v9 (F := Ideal) x1 x2) natLt_1_32
    reducesTo_S100000x31_S100000_d1 h_S_ (ix1 n)).trans ?_
  unfold posCount
  refine congrArg Finset.card (Finset.filter_congr fun q _ => ?_)
  have e : StableHlo.Predicate.ij n q = ix2 n q :=
    funext fun a => by match a with | ⟨0, _⟩ => rfl | ⟨1, _⟩ => rfl
  exact Iff.of_eq (congrArg (fun z => val_main_v9 (F := Ideal) x1 x2 z = 1#1) e)

theorem mask_at (n : Fin 100000) : val_main_v49 (F := Ideal) x1 x2 (ix1 n) = pointMask (bitRow x1 x2 n) := by
  rw [val_main_v49_apply, val_main_v16_apply, val_main_v13_apply, val_main_v15_apply, val_main_v12_apply, val_main_v14_apply,
    val_main_c_2_apply, val_main_c_3_apply]
  exact maskI_of_count (bitRow x1 x2 n) _ (count_at x1 x2 n)

/-! ## The result -/

/-- The reference's result is the counted rows' losses summed over the larger of their number and one. -/
theorem result_eq (i : S_.Idx) :
    val_main_v55 (F := Ideal) x0 x1 x2 i
      = total (fun n => rowLoss (ssRow x0 x2 n) (markRow x1 x2 n)) (fun n => pointMask (bitRow x1 x2 n)) := by
  rw [val_main_v55_apply, val_main_v54_apply, val_main_v53_apply, val_main_v51_apply, val_main_v50_apply]
  have hz1 : val_main_cst_14 (F := Ideal) (Shape.Idx.first h_S_) = 0 := Ideal.ofBits_zero_f32
  have hz2 : val_main_cst_12 (F := Ideal) (Shape.Idx.first h_S_) = 0 := Ideal.ofBits_zero_f32
  rw [hz1, hz2, zero_add, zero_add]
  refine total_eq _ _ _ _ _ _ (Finset.sum_congr rfl fun j _ => ?_) (Finset.sum_congr rfl fun j _ => ?_) rfl rfl
  · refine (congrArg (val_main_v52 (F := Ideal) x0 x1 x2) (eq_ix1_rowOf j)).trans ?_
    rw [val_main_v52_apply, loss_at, mask_at]
    rfl
  · refine (congrArg (val_main_v49 (F := Ideal) x1 x2) (eq_ix1_rowOf j)).trans ?_
    rw [mask_at]

end Cert.ReferenceIdeal.RefValue

end
-- ==== Proof.Agreement.lean ====
/-
  The two programs' results are one number.

  Both are `total` of the rows' losses and masks (Proof/Spec.lean) over the same squared distances and the same
  mark bits of the arguments. The kernel program reads the marks as floats and decides whether a row counts on their
  float sum; the reference decides on the integer count of the bits; either is `pointMask` of the bits
  (`maskF_of_bits`), and a mark read as a float is the bit's value.
-/
import proofs.«431074_j32298154066765_3_alg».proof.Proof.KernelRun
import proofs.«431074_j32298154066765_3_alg».proof.Proof.RefValue

noncomputable section

namespace Cert.Agreement

open Idealize.ShloMosaic Idealize.ShloMosaic.TcCoe Idealize.ShloMosaic.ValueIdx Idealize.SL.Sem Cert.SoftNN
open Cert.KernelIdeal Cert.KernelIdeal.Gen Cert.KernelIdeal.ArrayValue Cert.KernelIdeal.RunValue

/-- The kernel program's result is the reference's function of the same arguments. -/
theorem result_agree (m : (ℓ : Loc nD τ sig) → Buf (Elt Ideal) ℓ) (c : Dev nD) (i : S_.Idx) :
    result m c i
      = Cert.ReferenceIdeal.Read.val_main_v55 (F := Ideal) (m ((c.tc : Thread nD τ).loc main_arg0))
          (m ((c.tc : Thread nD τ).loc main_arg1)) (m ((c.tc : Thread nD τ).loc main_arg2)) i := by
  rw [Cert.ReferenceIdeal.RefValue.result_eq]
  unfold result
  have hL : (fun n : Fin 100000 => rowLoss (bigRow (SSof m c) n) (bigRow (PFof m c) n))
      = fun n => rowLoss (Cert.ReferenceIdeal.RefValue.ssRow (m ((c.tc : Thread nD τ).loc main_arg0)) (m ((c.tc : Thread nD τ).loc main_arg2)) n)
          (Cert.ReferenceIdeal.RefValue.markRow (m ((c.tc : Thread nD τ).loc main_arg1)) (m ((c.tc : Thread nD τ).loc main_arg2)) n) := rfl
  have hP : (fun n : Fin 100000 => maskF (bigRow (PFof m c) n))
      = fun n => pointMask (Cert.ReferenceIdeal.RefValue.bitRow (m ((c.tc : Thread nD τ).loc main_arg1)) (m ((c.tc : Thread nD τ).loc main_arg2)) n) :=
    funext fun n => maskF_of_bits (Cert.ReferenceIdeal.RefValue.bitRow (m ((c.tc : Thread nD τ).loc main_arg1)) (m ((c.tc : Thread nD τ).loc main_arg2)) n)
  rw [hL, hP]

end Cert.Agreement

end
-- ==== Proof.lean ====
/- The certificate: the contrastive head's kernel program and its jnp reference compute the same number.

   Both programs gather each point's 31 neighbours, take the squared distances and the positive marks on the host, and
   then, per row: logits minus the distances, a softmax over the row at temperature T, the positives' share of it, minus
   its logarithm; a row counts when some but not all neighbours are positive; the result is the counted rows' mean loss.
   The kernel program does the row part in a kernel over blocks of 2000 rows and the final sums on the host
   (Proof/KernelRow.lean, Proof/KernelArray.lean, Proof/KernelRun.lean); the reference does all of it on the host
   (Proof/RefValue.lean). Over the extended reals the two agree entry by entry (Proof/Agreement.lean): a sum in any order
   is the sum, a float count of 0/1 marks is the integer count, and 0 - x is -x.
   The three frames are the programs' runs with the results forgotten; the idealization rewrote nothing. -/
import proofs.«431074_j32298154066765_3_alg».proof.Defs
import proofs.«431074_j32298154066765_3_alg».proof.Proof.Gen.Kernel
import proofs.«431074_j32298154066765_3_alg».proof.Proof.Gen.Kernel.Skeleton
import proofs.«431074_j32298154066765_3_alg».proof.Proof.Gen.Kernel.Launch
import proofs.«431074_j32298154066765_3_alg».proof.Proof.Gen.Kernel.Points
import proofs.«431074_j32298154066765_3_alg».proof.Proof.Gen.Kernel.Frame
import proofs.«431074_j32298154066765_3_alg».proof.Proof.Gen.KernelIdeal
import proofs.«431074_j32298154066765_3_alg».proof.Proof.Gen.KernelIdeal.Skeleton
import proofs.«431074_j32298154066765_3_alg».proof.Proof.Gen.KernelIdeal.Launch
import proofs.«431074_j32298154066765_3_alg».proof.Proof.Gen.KernelIdeal.Points
import proofs.«431074_j32298154066765_3_alg».proof.Proof.Gen.KernelIdeal.Frame
import proofs.«431074_j32298154066765_3_alg».proof.Proof.Gen.ReferenceIdeal
import proofs.«431074_j32298154066765_3_alg».proof.Proof.Gen.Pre_finite_inputs
import proofs.«431074_j32298154066765_3_alg».proof.Proof.Gen.ReferenceIdeal.Run
import proofs.«431074_j32298154066765_3_alg».proof.Proof.Gen.ReferenceIdeal.Read
import proofs.«431074_j32298154066765_3_alg».proof.Proof.Agreement
import Idealize.ShloMosaic.Adequacy
import Idealize.ShloMosaic.Init

noncomputable section

namespace Cert.Proof

open Idealize.ShloMosaic Idealize.SL.Sem Cert.Kernel

/-- The kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the kernel program at
    `result`, the reference at its last stage of the same arguments, which are one number. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2]
  exact (funext fun i => Cert.Agreement.result_agree m c i).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
